-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S50000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : IVec S1600000 32) (main_arg11 : IVec S1600000 32) (main_arg12 : IVec S1600000 32) (main_arg13 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 70
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S50000x128, .f32⟩
  | .hbm, ⟨25, _⟩ => ⟨S1600000x1, .i32⟩
  | .hbm, ⟨26, _⟩ => ⟨S50000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S50000, .f32⟩
  | .hbm, ⟨31, _⟩ => ⟨S1600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S1x128, .f32⟩
  | .hbm, ⟨66, _⟩ => ⟨S100000x128, .f32⟩
  | .hbm, ⟨67, _⟩ => ⟨S1x128, .f32⟩
  | .hbm, ⟨68, _⟩ => ⟨S1x128, .f32⟩
  | .hbm, ⟨69, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_cst_8 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S100000 : Shape := ⟨1, ![100000]⟩
abbrev S100000x1 : Shape := ⟨2, ![100000, 1]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S100000x128, .f32⟩
  | .hbm, ⟨15, _⟩ => ⟨S1x128, .f32⟩
  | .hbm, ⟨16, _⟩ => ⟨S100000x128, .f32⟩
  | .hbm, ⟨17, _⟩ => ⟨S100000x128, .f32⟩
  | .hbm, ⟨18, _⟩ => ⟨S50000x128, .f32⟩
  | .hbm, ⟨19, _⟩ => ⟨S1x128, .f32⟩
  | .hbm, ⟨20, _⟩ => ⟨S50000x128, .f32⟩
  | .hbm, ⟨21, _⟩ => ⟨S50000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S50000x128, .f32⟩
  | .hbm, ⟨33, _⟩ => ⟨S1600000x1, .i32⟩
  | .hbm, ⟨34, _⟩ => ⟨S50000x128, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S50000, .f32⟩
  | .hbm, ⟨39, _⟩ => ⟨S1600000x1, .i32⟩
  | .hbm, ⟨40, _⟩ => ⟨S50000, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S50000x128, .f32⟩
  | .hbm, ⟨87, _⟩ => ⟨S50000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call0_cst : Ref sig .tc := ⟨.hbm, 82, rfl⟩
abbrev main_call0_v0 : Ref sig .tc := ⟨.hbm, 83, rfl⟩
abbrev main_v56 : Ref sig .tc := ⟨.hbm, 84, rfl⟩
abbrev main_call1_cst : Ref sig .tc := ⟨.hbm, 85, rfl⟩
abbrev main_call1_v0 : Ref sig .tc := ⟨.hbm, 86, rfl⟩
abbrev main_v57 : Ref sig .tc := ⟨.hbm, 87, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S50000x128_0_1 : S1x128.BroadcastsInDim S50000x128 (![0, 1] : Fin 2 → Fin S50000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.Spec.lean ====
/-
  One layer of a two-type graph network, entry by entry, over the extended reals.

  For a node type with `M` nodes and 128 features, with `x` the nodes' own features, `agg` the mean of their
  in-neighbours' features, `ws` / `wn` the self and neighbour weights and `bs` / `bn` the two biases, the entry
  at node `r` and output feature `q` is

      max (Σ_k x[r,k]·ws[k,q]  +  Σ_k agg[r,k]·wn[k,q]  +  bs[q]  +  bn[q]) 0 .

  The fused kernel adds the two products first and then the two biases; the reference adds the self bias to the
  self product before the neighbour product comes in. Addition of extended reals is commutative and associative
  (no cancellation or distribution is involved), so the two groupings are one function whatever the inputs,
  infinite ones included.
-/
import Idealize.ShloMosaic.Lib.ValueIdx

noncomputable section

namespace Cert.SageSpec

open scoped BigOperators

/-- The layer's entry in the kernel's grouping: both matrix products summed, then the self bias, then the
    neighbour bias, then the rectifier. -/
def entry {M : Nat} (x agg : Fin M → Fin 128 → EReal) (ws wn : Fin 128 → Fin 128 → EReal) (bs bn : Fin 128 → EReal)
    (r : Fin M) (q : Fin 128) : EReal :=
  max ((((∑ k : Fin 128, x r k * ws k q) + ∑ k : Fin 128, agg r k * wn k q) + bs q) + bn q) 0

/-- The same entry in the reference's grouping: the self product and its bias first, then the neighbour product,
    then the neighbour bias, then the rectifier. -/
def entryRef {M : Nat} (x agg : Fin M → Fin 128 → EReal) (ws wn : Fin 128 → Fin 128 → EReal) (bs bn : Fin 128 → EReal)
    (r : Fin M) (q : Fin 128) : EReal :=
  max ((((∑ k : Fin 128, x r k * ws k q) + bs q) + ∑ k : Fin 128, agg r k * wn k q) + bn q) 0

/-- The two groupings agree: `(a + n) + b = (a + b) + n` in any commutative additive monoid. -/
theorem entryRef_eq_entry {M : Nat} (x agg : Fin M → Fin 128 → EReal) (ws wn : Fin 128 → Fin 128 → EReal)
    (bs bn : Fin 128 → EReal) (r : Fin M) (q : Fin 128) :
    entryRef x agg ws wn bs bn r q = entry x agg ws wn bs bn r q := by
  unfold entryRef entry
  rw [add_right_comm (∑ k : Fin 128, x r k * ws k q) (bs q) (∑ k : Fin 128, agg r k * wn k q)]

end Cert.SageSpec

end
-- ==== Proof.RefSide.lean ====
/-
  The reference's two results, entry by entry, are the layer in the reference's grouping.

  For either node type the reference computes `relu (((x · ws + bs) + agg · wn) + bn)`: each product of the host is,
  over the extended reals, the plain sum over the 128 contracted features, a bias is broadcast along the rows, and
  the rectifier is the maximum with zero. The aggregated array `agg` is left as the stage that computes it.
-/
import proofs.«182036_j764504178904_1_alg».proof.Proof.Gen.ReferenceIdeal.Read
import proofs.«182036_j764504178904_1_alg».proof.Proof.Spec
import Idealize.ShloMosaic.Lib.ValueIdx
import Idealize.ShloMosaic.PureOps.Ideal.Laws

noncomputable section

namespace Cert.ReferenceIdeal.RefSide

open Cert.ReferenceIdeal Cert.ReferenceIdeal.Gen Cert.ReferenceIdeal.Read Idealize.ShloMosaic Idealize.ShloMosaic.TcCoe Idealize.SL.Sem
open Idealize.ShloMosaic.ValueIdx

/-! ## The stages' index maps are "same row, feature k", "feature k, same column", "same column" -/

theorem rowM (i : S100000x128.Idx) (k : Fin 128) : lidx_main_v0 i k = ix2 (⟨(i 0).val, (i 0).isLt⟩ : Fin 100000) k :=
  funext fun a => by match a with | ⟨0, _⟩ => rfl | ⟨1, _⟩ => rfl
theorem colM (i : S100000x128.Idx) (k : Fin 128) : ridx_main_v0 i k = ix2 k (⟨(i 1).val, (i 1).isLt⟩ : Fin 128) :=
  funext fun a => by match a with | ⟨0, _⟩ => rfl | ⟨1, _⟩ => rfl
theorem rowM' (i : S100000x128.Idx) (k : Fin 128) : lidx_main_v51 i k = ix2 (⟨(i 0).val, (i 0).isLt⟩ : Fin 100000) k :=
  funext fun a => by match a with | ⟨0, _⟩ => rfl | ⟨1, _⟩ => rfl
theorem colM' (i : S100000x128.Idx) (k : Fin 128) : ridx_main_v51 i k = ix2 k (⟨(i 1).val, (i 1).isLt⟩ : Fin 128) :=
  funext fun a => by match a with | ⟨0, _⟩ => rfl | ⟨1, _⟩ => rfl
theorem biasM (i : S100000x128.Idx) : idx_main_v1 (idx_main_v2 i) = ix1 (⟨(i 1).val, (i 1).isLt⟩ : Fin 128) :=
  funext fun a => by match a with | ⟨0, _⟩ => rfl
theorem biasM' (i : S100000x128.Idx) : idx_main_v53 (idx_main_v54 i) = ix1 (⟨(i 1).val, (i 1).isLt⟩ : Fin 128) :=
  funext fun a => by match a with | ⟨0, _⟩ => rfl

theorem rowB (i : S50000x128.Idx) (k : Fin 128) : lidx_main_v4 i k = ix2 (⟨(i 0).val, (i 0).isLt⟩ : Fin 50000) k :=
  funext fun a => by match a with | ⟨0, _⟩ => rfl | ⟨1, _⟩ => rfl
theorem colB (i : S50000x128.Idx) (k : Fin 128) : ridx_main_v4 i k = ix2 k (⟨(i 1).val, (i 1).isLt⟩ : Fin 128) :=
  funext fun a => by match a with | ⟨0, _⟩ => rfl | ⟨1, _⟩ => rfl
theorem rowB' (i : S50000x128.Idx) (k : Fin 128) : lidx_main_v27 i k = ix2 (⟨(i 0).val, (i 0).isLt⟩ : Fin 50000) k :=
  funext fun a => by match a with | ⟨0, _⟩ => rfl | ⟨1, _⟩ => rfl
theorem colB' (i : S50000x128.Idx) (k : Fin 128) : ridx_main_v27 i k = ix2 k (⟨(i 1).val, (i 1).isLt⟩ : Fin 128) :=
  funext fun a => by match a with | ⟨0, _⟩ => rfl | ⟨1, _⟩ => rfl
theorem biasB (i : S50000x128.Idx) : idx_main_v5 (idx_main_v6 i) = ix1 (⟨(i 1).val, (i 1).isLt⟩ : Fin 128) :=
  funext fun a => by match a with | ⟨0, _⟩ => rfl
theorem biasB' (i : S50000x128.Idx) : idx_main_v29 (idx_main_v30 i) = ix1 (⟨(i 1).val, (i 1).isLt⟩ : Fin 128) :=
  funext fun a => by match a with | ⟨0, _⟩ => rfl

/-! ## The two results -/

/-- The member nodes' result: the layer in the reference's grouping, over the member features, the members'
    aggregated neighbour features (the stage that computes them), and the member-side weights and biases. -/
theorem members_eq (x0 : (⟨S100000x128, .f32⟩ : BufTy).Contents (Elt Ideal)) (x1 : (⟨S50000x128, .f32⟩ : BufTy).Contents (Elt Ideal))
    (x2 : (⟨S128x128, .f32⟩ : BufTy).Contents (Elt Ideal)) (x3 : (⟨S128, .f32⟩ : BufTy).Contents (Elt Ideal))
    (x8 : (⟨S128x128, .f32⟩ : BufTy).Contents (Elt Ideal)) (x9 : (⟨S128, .f32⟩ : BufTy).Contents (Elt Ideal))
    (x12 x13 : (⟨S1600000, .i32⟩ : BufTy).Contents (Elt Ideal)) :
    val_main_v56 (F := Ideal) x0 x1 x2 x3 x8 x9 x12 x13
      = fun i => Cert.SageSpec.entryRef (M := 100000) (fun r k => x0 (ix2 r k))
          (fun r k => val_main_v50 (F := Ideal) x1 x12 x13 (ix2 r k))
          (fun k q => x2 (ix2 k q)) (fun k q => x8 (ix2 k q)) (fun q => x3 (ix1 q)) (fun q => x9 (ix1 q))
          ⟨(i 0).val, (i 0).isLt⟩ ⟨(i 1).val, (i 1).isLt⟩ := by
  funext i
  rw [val_main_v56_apply, val_main_v55_apply, val_main_v52_apply, val_main_v3_apply, val_main_v0_apply, val_main_v51_apply,
    val_main_v2_apply, val_main_v1_apply, val_main_v54_apply, val_main_v53_apply, val_main_call0_v0_apply,
    val_main_call0_cst_apply]
  unfold Cert.SageSpec.entryRef
  simp only [rowM, colM, rowM', colM', biasM, biasM']
  show max _ (Ideal.ofBits .f32 0x00000000#32) = _
  rw [Ideal.ofBits_zero_f32]
  rfl

/-- The bill nodes' result, likewise. -/
theorem bills_eq (x0 : (⟨S100000x128, .f32⟩ : BufTy).Contents (Elt Ideal)) (x1 : (⟨S50000x128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x10 x11 : (⟨S1600000, .i32⟩ : BufTy).Contents (Elt Ideal)) :
    val_main_v57 (F := Ideal) x0 x1 x4 x5 x6 x7 x10 x11
      = fun i => Cert.SageSpec.entryRef (M := 50000) (fun r k => x1 (ix2 r k))
          (fun r k => val_main_v26 (F := Ideal) x0 x10 x11 (ix2 r k))
          (fun k q => x4 (ix2 k q)) (fun k q => x6 (ix2 k q)) (fun q => x5 (ix1 q)) (fun q => x7 (ix1 q))
          ⟨(i 0).val, (i 0).isLt⟩ ⟨(i 1).val, (i 1).isLt⟩ := by
  funext i
  rw [val_main_v57_apply, val_main_v31_apply, val_main_v28_apply, val_main_v7_apply, val_main_v4_apply, val_main_v27_apply,
    val_main_v6_apply, val_main_v5_apply, val_main_v30_apply, val_main_v29_apply, val_main_call1_v0_apply,
    val_main_call1_cst_apply]
  unfold Cert.SageSpec.entryRef
  simp only [rowB, colB, rowB', colB', biasB, biasB']
  show max _ (Ideal.ofBits .f32 0x00000000#32) = _
  rw [Ideal.ofBits_zero_f32]
  rfl

end Cert.ReferenceIdeal.RefSide

end
-- ==== Proof.Entry.lean ====
/-
  What each launch finds in its operand arrays, and where the two results end up, read back to the launch memory.

  The program first computes, on the host, the two mean aggregations (a gather of source rows along the edges, a
  segment sum into the destination rows, a division by the clamped in-degree) and the biases reshaped to rows;
  then it launches the fused kernel for the member nodes, reshapes the other two biases, and launches it for the
  bill nodes. No host operation and no launch writes an argument array, the second launch does not touch the first
  one's output, and the aggregated arrays and the bias rows are written once, before the launch that reads them.
  Each aggregation is carried as ONE function of the arrays it is computed from: its inside is never opened.
-/
import proofs.«182036_j764504178904_1_alg».proof.Proof.Gen.KernelIdeal.Frame
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo
open Idealize.ShloMosaic.Pipeline (Dat Cfg Window)

variable {F : FTy → Type} [FloatOps F]

/-- The bill nodes' aggregated features: for each bill, the mean over its incoming member → bill edges of the source member's feature row (the in-degree clamped below at one). -/
def aggBills (x0 : (⟨S100000x128, .f32⟩ : BufTy).Contents (Elt F)) (x10 x11 : (⟨S1600000, .i32⟩ : BufTy).Contents (Elt F)) :
    (⟨S50000x128, .f32⟩ : BufTy).Contents (Elt F) :=
  Host.divf
    (Host.scatterAdd scatter_S50000x128_S1600000x1_S1600000x128_1_0_0_1
      (broadcastInDim S50000x128 ![] bcast_S_S50000x128 (constant S_ .f32 0x00000000#32))
      (broadcastInDim S1600000x1 ![0] bcast_S1600000_S1600000x1_0 x11)
      (Host.gather gather_S100000x128_S1600000x1_S1600000x128_1_0_n_n_0_1_1128 x0
        (broadcastInDim S1600000x1 ![0] bcast_S1600000_S1600000x1_0
          (select (cmpi .slt x10 (broadcastInDim S1600000 ![] bcast_S_S1600000 (constantI S_ 32 0#32)))
            (addi x10 (broadcastInDim S1600000 ![] bcast_S_S1600000 (constantI S_ 32 100000#32))) x10))))
    (broadcastInDim S50000x128 ![0, 1] bcast_S50000x1_S50000x128_0_1
      (broadcastInDim S50000x1 ![0] bcast_S50000_S50000x1_0
        (maximumf
          (Host.scatterAdd scatter_S50000_S1600000x1_S1600000_n_0_0_1
            (broadcastInDim S50000 ![] bcast_S_S50000 (constant S_ .f32 0x00000000#32))
            (broadcastInDim S1600000x1 ![0] bcast_S1600000_S1600000x1_0 x11)
            (broadcastInDim S1600000 ![] bcast_S_S1600000 (constant S_ .f32 0x3F800000#32)))
          (broadcastInDim S50000 ![] bcast_S_S50000 (constant S_ .f32 0x3F800000#32)))))

/-- The member nodes' aggregated features: for each member, the mean over its incoming bill → member edges of the source bill's feature row (the in-degree clamped below at one). -/
def aggMembers (x1 : (⟨S50000x128, .f32⟩ : BufTy).Contents (Elt F)) (x12 x13 : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 x13)
      (Host.gather gather_S50000x128_S1600000x1_S1600000x128_1_0_n_n_0_1_1128 x1
        (broadcastInDim S1600000x1 ![0] bcast_S1600000_S1600000x1_0
          (select (cmpi .slt x12 (broadcastInDim S1600000 ![] bcast_S_S1600000 (constantI S_ 32 0#32)))
            (addi x12 (broadcastInDim S1600000 ![] bcast_S_S1600000 (constantI S_ 32 50000#32))) x12))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 x13)
            (broadcastInDim S1600000 ![] bcast_S_S1600000 (constant S_ .f32 0x3F800000#32)))
          (broadcastInDim S100000 ![] bcast_S_S100000 (constant S_ .f32 0x3F800000#32)))))

variable (m : (ℓ : Loc nD τ sig) → Buf (Elt F) ℓ) (ρ : Dev nD → PrngReg)

/-! ## The first launch's operands -/

theorem first_feats (c : Dev nD) : V1 m ρ c main_arg0 = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem first_wSelf (c : Dev nD) : V1 m ρ c main_arg2 = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem first_wNeigh (c : Dev nD) : V1 m ρ c main_arg8 = m ((c : Thread nD τ).loc main_arg8) :=
  (StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

set_option maxHeartbeats 4000000 in
theorem first_neigh (c : Dev nD) : V1 m ρ c main_v37
    = aggMembers (m ((c : Thread nD τ).loc main_arg1)) (m ((c : Thread nD τ).loc main_arg12)) (m ((c : Thread nD τ).loc main_arg13)) := by
  show StableHlo.after hostOps0 (W0 m ρ c) (Proc.devRef .tc main_v37) = _
  unfold aggMembers
  after_results_simp <;> rfl

set_option maxHeartbeats 4000000 in
theorem first_bSelf (c : Dev nD) : V1 m ρ c main_v38
    = shapeCast S1x128 (m ((c : Thread nD τ).loc main_arg3)) shapeCasts_S128_S1x128 := by
  show StableHlo.after hostOps0 (W0 m ρ c) (Proc.devRef .tc main_v38) = _
  after_results_simp <;> rfl

set_option maxHeartbeats 4000000 in
theorem first_bNeigh (c : Dev nD) : V1 m ρ c main_v39
    = shapeCast S1x128 (m ((c : Thread nD τ).loc main_arg9)) shapeCasts_S128_S1x128 := by
  show StableHlo.after hostOps0 (W0 m ρ c) (Proc.devRef .tc main_v39) = _
  after_results_simp <;> rfl

/-! ## The second launch's operands -/

/-- A buffer that neither the first launch nor the host operations between the launches write holds at the second
    launch what the host operations before the first launch left in it. -/
theorem second_feats (c : Dev nD) : V3 m ρ c main_arg1 = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem second_wSelf (c : Dev nD) : V3 m ρ c main_arg4 = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem second_wNeigh (c : Dev nD) : V3 m ρ c main_arg6 = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

set_option maxHeartbeats 4000000 in
theorem second_neigh (c : Dev nD) : V3 m ρ c main_v18
    = aggBills (m ((c : Thread nD τ).loc main_arg0)) (m ((c : Thread nD τ).loc main_arg10)) (m ((c : Thread nD τ).loc main_arg11)) :=
  calc W3 m ρ c (Proc.devRef .tc main_v18)
    _ = W2 m ρ c (Proc.devRef .tc main_v18) := StableHlo.after_of_forall_not_mem (b := Proc.devRef .tc main_v18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v18) := W2_of_ne m ρ c main_v18 (by decide)
    _ = _ := by
      show StableHlo.after hostOps0 (W0 m ρ c) (Proc.devRef .tc main_v18) = _
      unfold aggBills
      after_results_simp <;> rfl

/-- An argument array as the host operations between the launches find it. -/
theorem between_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem between_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem second_bSelf (c : Dev nD) : V3 m ρ c main_v41
    = shapeCast S1x128 (m ((c : Thread nD τ).loc main_arg5)) shapeCasts_S128_S1x128 := by
  rw [← between_arg5 m ρ c]
  show StableHlo.after hostOps1 (W2 m ρ c) (Proc.devRef .tc main_v41) = _
  after_results <;> rfl

theorem second_bNeigh (c : Dev nD) : V3 m ρ c main_v42
    = shapeCast S1x128 (m ((c : Thread nD τ).loc main_arg7)) shapeCasts_S128_S1x128 := by
  rw [← between_arg7 m ρ c]
  show StableHlo.after hostOps1 (W2 m ρ c) (Proc.devRef .tc main_v42) = _
  after_results <;> rfl

/-! ## Where the two results end up -/

/-- The member nodes' result is the first launch's output array: the host operations between the launches and the
    second launch leave it alone. -/
theorem result_members (c : Dev nD) : W4 m ρ c (Proc.devRef .tc main_v40) = (dat0 (V1 m ρ) c).arrAt 6 cfg0.N :=
  calc W4 m ρ c (Proc.devRef .tc main_v40)
    _ = W3 m ρ c (Proc.devRef .tc main_v40) := W4_of_ne m ρ c main_v40 (by decide)
    _ = W2 m ρ c (Proc.devRef .tc main_v40) := StableHlo.after_of_forall_not_mem (b := Proc.devRef .tc main_v40) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 6 cfg0.N := W2_arr m ρ c 6

/-- The bill nodes' result is the second launch's output array. -/
theorem result_bills (c : Dev nD) : W4 m ρ c (Proc.devRef .tc main_v43) = (dat1 (V3 m ρ) c).arrAt 6 cfg1.N :=
  W4_arr m ρ c 6

end Cert.KernelIdeal.Entry

end
-- ==== Proof.Payload.lean ====
/-
  The fused body's stored value, read at one entry of its 5000 × 128 block.

  The body loads a block `x` of node features and the matching block `a` of aggregated neighbour features, the
  two 128 × 128 weight matrices and the two bias rows, and stores

      max ((x · ws + a · wn) + bs + bn) 0 .

  Over the extended reals a change of float format is the identity and a matrix product into a zero accumulator
  is the plain sum over the contracted axis, so the entry at row `p`, column `q` is the layer's entry of
  `Cert.SageSpec.entry` at the block's rows. Both launches of the kernel run this same body.
-/
import proofs.«182036_j764504178904_1_alg».proof.Proof.Gen.KernelIdeal.Skeleton
import proofs.«182036_j764504178904_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.TcCoe Idealize.SL.Sem
open Idealize.ShloMosaic.ValueIdx

/-! ## The block product's operand indices, axis by axis -/

theorem lhs_axis0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
theorem rhs_axis0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
theorem rhs_axis1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at row `p` and column `q`: the sum over the 128 contracted
    features of the left operand's row `p` times the right operand's column `q`. -/
theorem blockProduct_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The first launch's stored value at row `p`, column `q` of its block is the layer's entry there, of the
    loaded blocks read by row and column. -/
theorem pay0_at (v0 v2 : Vec Ideal S5000x128 .f32) (v5 v7 : Vec Ideal S128x128 .f32) (v12 v16 : Vec Ideal S1x128 .f32)
    (p : Fin 5000) (q : Fin 128) :
    k0_pay1 (F := Ideal) v0 v2 v5 v7 v12 v16 (ix2 p q)
      = Cert.SageSpec.entry (M := 5000) (fun r k => v0 (ix2 r k)) (fun r k => v2 (ix2 r k)) (fun k c => v5 (ix2 k c))
          (fun k c => v7 (ix2 k c)) (fun c => v12 (ix2 (0 : Fin 1) c)) (fun c => v16 (ix2 (0 : Fin 1) c)) p q := by
  unfold k0_pay1 Cert.SageSpec.entry
  simp only [maximumf_apply, addf_apply, broadcast_apply]
  rw [blockProduct_at, blockProduct_at, broadcastTo_1b_ab_apply, broadcastTo_1b_ab_apply]
  simp only [shapeCast_self, truncf_apply]
  show max _ (Ideal.ofBits .f32 0x00000000#32) = _
  rw [Ideal.ofBits_zero_f32]

/-- The second launch runs the same body. -/
theorem pay1_eq_pay0 (v0 v2 : Vec Ideal S5000x128 .f32) (v5 v7 : Vec Ideal S128x128 .f32) (v12 v16 : Vec Ideal S1x128 .f32) :
    k1_pay1 (F := Ideal) v0 v2 v5 v7 v12 v16 = k0_pay1 (F := Ideal) v0 v2 v5 v7 v12 v16 := rfl

/-- The second launch's stored value at row `p`, column `q` of its block: the same entry. -/
theorem pay1_at (v0 v2 : Vec Ideal S5000x128 .f32) (v5 v7 : Vec Ideal S128x128 .f32) (v12 v16 : Vec Ideal S1x128 .f32)
    (p : Fin 5000) (q : Fin 128) :
    k1_pay1 (F := Ideal) v0 v2 v5 v7 v12 v16 (ix2 p q)
      = Cert.SageSpec.entry (M := 5000) (fun r k => v0 (ix2 r k)) (fun r k => v2 (ix2 r k)) (fun k c => v5 (ix2 k c))
          (fun k c => v7 (ix2 k c)) (fun c => v12 (ix2 (0 : Fin 1) c)) (fun c => v16 (ix2 (0 : Fin 1) c)) p q :=
  (congrFun (pay1_eq_pay0 v0 v2 v5 v7 v12 v16) (ix2 p q)).trans (pay0_at v0 v2 v5 v7 v12 v16 p q)

end Cert.KernelIdeal.Body

end
-- ==== Proof.Region0Value.lean ====
/-
  The first launch (the member nodes): what its output array holds when the launch is over.

  The grid has 20 points; point `t` reads rows `5000·t … 5000·t + 4999` of the node features and of the aggregated
  neighbour features, the two weight matrices and the two bias rows whole, and writes the same rows of the
  output. Every entry of the block a point writes back is the layer's entry (`Cert.SageSpec.entry`) at that row and
  column of the WHOLE arrays: an output row depends on the same row of the two feature arrays only. The 20 blocks
  tile the 100000 rows, so after the last point the output array is the layer of the arrays the launch found.
  All of it is stated at whatever the buffers hold when the launch is entered (`V`).
-/
import proofs.«182036_j764504178904_1_alg».proof.Proof.Gen.KernelIdeal.Frame
import proofs.«182036_j764504178904_1_alg».proof.Proof.Payload

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-! ## The arrays the launch finds, at their literal shapes -/

abbrev feats (c : Dev nD) : S100000x128.Idx → EReal := V c main_arg0
abbrev neigh (c : Dev nD) : S100000x128.Idx → EReal := V c main_v37
abbrev wSelf (c : Dev nD) : S128x128.Idx → EReal := V c main_arg2
abbrev bSelf (c : Dev nD) : S1x128.Idx → EReal := V c main_v38
abbrev wNeigh (c : Dev nD) : S128x128.Idx → EReal := V c main_arg8
abbrev bNeigh (c : Dev nD) : S1x128.Idx → EReal := V c main_v39

/-- The layer over the arrays the launch finds: the entry at row `i 0`, column `i 1`. -/
def layer (c : Dev nD) : S100000x128.Idx → EReal := fun i =>
  Cert.SageSpec.entry (M := 100000) (fun r k => feats V c (ix2 r k)) (fun r k => neigh V c (ix2 r k))
    (fun k q => wSelf V c (ix2 k q)) (fun k q => wNeigh V c (ix2 k q))
    (fun q => bSelf V c (ix2 (0 : Fin 1) q)) (fun q => bNeigh V c (ix2 (0 : Fin 1) q))
    ⟨(i 0).val, (i 0).isLt⟩ ⟨(i 1).val, (i 1).isLt⟩

/-- The layer depends on the six arrays only: over arrays known by other names it is the same entries. -/
theorem layer_of (c : Dev nD) (X A : S100000x128.Idx → EReal) (Ws Wn : S128x128.Idx → EReal) (Bs Bn : S1x128.Idx → EReal)
    (hX : feats V c = X) (hA : neigh V c = A) (hWs : wSelf V c = Ws) (hWn : wNeigh V c = Wn)
    (hBs : bSelf V c = Bs) (hBn : bNeigh V c = Bn) :
    layer V c = fun i => Cert.SageSpec.entry (M := 100000) (fun r k => X (ix2 r k)) (fun r k => A (ix2 r k))
      (fun k q => Ws (ix2 k q)) (fun k q => Wn (ix2 k q))
      (fun q => Bs (ix2 (0 : Fin 1) q)) (fun q => Bn (ix2 (0 : Fin 1) q))
      ⟨(i 0).val, (i 0).isLt⟩ ⟨(i 1).val, (i 1).isLt⟩ := by
  subst hX hA hWs hWn hBs hBn
  rfl

theorem zeroOffsets : (![0, 0] : Fin 2 → Nat) = fun _ => 0 := funext fun a => by fin_cases a <;> rfl

/-- The printed index maps, decided over the 20 points: the two feature windows move with the output window along
    the rows; the weights and biases stay at block (0, 0); the output's row block is the point's number. -/
theorem indexMaps : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 19 ∧ win0_6.index t (1 : Fin 2) = 0 :=
  (by decide +kernel : ∀ t : Fin grid0.N, _)

/-- Every row block of the output is some point's. -/
theorem rowBlocks_onto : ∀ b : Fin 20, ∃ t : Fin cfg0.N, win0_6.index t = ![b.val, 0] :=
  (by decide +kernel : ∀ b : Fin 20, ∃ t : Fin grid0.N, win0_6.index t = ![b.val, 0])

/-! ## Each input block is its array read where the output's block sits -/

/-- The row of the whole arrays that row `p` of point `t`'s output block is. -/
abbrev rowOf (t : Fin cfg0.N) (p : Fin 5000) (q : Fin 128) : S100000x128.Idx := ((cfg0.win 6).blk t).view.emb (ix2 p q)

theorem read_feats (c : Dev nD) (t : Fin cfg0.N) (p : Fin 5000) (q k : Fin 128) :
    iblk0 V c 0 t (ix2 p k) = feats V c (ix2 ⟨(rowOf t p q 0).val, (rowOf t p q 0).isLt⟩ k) := by
  obtain ⟨e00, e01, e10, e11, e20, e21, e30, e31, e40, e41, e50, e51, e60, e61⟩ := indexMaps t
  show V c main_arg0 (((cfg0.win 0).blk t).view.emb (ix2 p k)) = V c main_arg0 _
  refine congrArg (V c main_arg0) (funext fun a => Fin.ext ?_)
  match a with
  | ⟨0, _⟩ => show win0_0.index t (0 : Fin 2) * 5000 + 1 * p.val = win0_6.index t (0 : Fin 2) * 5000 + 1 * p.val; omega
  | ⟨1, _⟩ => show win0_0.index t (1 : Fin 2) * 128 + 1 * k.val = k.val; omega

theorem read_neigh (c : Dev nD) (t : Fin cfg0.N) (p : Fin 5000) (q k : Fin 128) :
    iblk0 V c 1 t (ix2 p k) = neigh V c (ix2 ⟨(rowOf t p q 0).val, (rowOf t p q 0).isLt⟩ k) := by
  obtain ⟨e00, e01, e10, e11, e20, e21, e30, e31, e40, e41, e50, e51, e60, e61⟩ := indexMaps t
  show V c main_v37 (((cfg0.win 1).blk t).view.emb (ix2 p k)) = V c main_v37 _
  refine congrArg (V c main_v37) (funext fun a => Fin.ext ?_)
  match a with
  | ⟨0, _⟩ => show win0_1.index t (0 : Fin 2) * 5000 + 1 * p.val = win0_6.index t (0 : Fin 2) * 5000 + 1 * p.val; omega
  | ⟨1, _⟩ => show win0_1.index t (1 : Fin 2) * 128 + 1 * k.val = k.val; omega

theorem read_wSelf (c : Dev nD) (t : Fin cfg0.N) (p : Fin 5000) (q k : Fin 128) :
    iblk0 V c 2 t (ix2 k q) = wSelf V c (ix2 k ⟨(rowOf t p q 1).val, (rowOf t p q 1).isLt⟩) := by
  obtain ⟨e00, e01, e10, e11, e20, e21, e30, e31, e40, e41, e50, e51, e60, e61⟩ := indexMaps t
  show V c main_arg2 (((cfg0.win 2).blk t).view.emb (ix2 k q)) = V c main_arg2 _
  refine congrArg (V c main_arg2) (funext fun a => Fin.ext ?_)
  match a with
  | ⟨0, _⟩ => show win0_2.index t (0 : Fin 2) * 128 + 1 * k.val = k.val; omega
  | ⟨1, _⟩ => show win0_2.index t (1 : Fin 2) * 128 + 1 * q.val = win0_6.index t (1 : Fin 2) * 128 + 1 * q.val; omega

theorem read_wNeigh (c : Dev nD) (t : Fin cfg0.N) (p : Fin 5000) (q k : Fin 128) :
    iblk0 V c 4 t (ix2 k q) = wNeigh V c (ix2 k ⟨(rowOf t p q 1).val, (rowOf t p q 1).isLt⟩) := by
  obtain ⟨e00, e01, e10, e11, e20, e21, e30, e31, e40, e41, e50, e51, e60, e61⟩ := indexMaps t
  show V c main_arg8 (((cfg0.win 4).blk t).view.emb (ix2 k q)) = V c main_arg8 _
  refine congrArg (V c main_arg8) (funext fun a => Fin.ext ?_)
  match a with
  | ⟨0, _⟩ => show win0_4.index t (0 : Fin 2) * 128 + 1 * k.val = k.val; omega
  | ⟨1, _⟩ => show win0_4.index t (1 : Fin 2) * 128 + 1 * q.val = win0_6.index t (1 : Fin 2) * 128 + 1 * q.val; omega

theorem read_bSelf (c : Dev nD) (t : Fin cfg0.N) (p : Fin 5000) (q : Fin 128) :
    iblk0 V c 3 t (ix2 (0 : Fin 1) q) = bSelf V c (ix2 (0 : Fin 1) ⟨(rowOf t p q 1).val, (rowOf t p q 1).isLt⟩) := by
  obtain ⟨e00, e01, e10, e11, e20, e21, e30, e31, e40, e41, e50, e51, e60, e61⟩ := indexMaps t
  show V c main_v38 (((cfg0.win 3).blk t).view.emb (ix2 (0 : Fin 1) q)) = V c main_v38 _
  refine congrArg (V c main_v38) (funext fun a => Fin.ext ?_)
  match a with
  | ⟨0, _⟩ => show win0_3.index t (0 : Fin 2) * 1 + 1 * 0 = 0; omega
  | ⟨1, _⟩ => show win0_3.index t (1 : Fin 2) * 128 + 1 * q.val = win0_6.index t (1 : Fin 2) * 128 + 1 * q.val; omega

theorem read_bNeigh (c : Dev nD) (t : Fin cfg0.N) (p : Fin 5000) (q : Fin 128) :
    iblk0 V c 5 t (ix2 (0 : Fin 1) q) = bNeigh V c (ix2 (0 : Fin 1) ⟨(rowOf t p q 1).val, (rowOf t p q 1).isLt⟩) := by
  obtain ⟨e00, e01, e10, e11, e20, e21, e30, e31, e40, e41, e50, e51, e60, e61⟩ := indexMaps t
  show V c main_v39 (((cfg0.win 5).blk t).view.emb (ix2 (0 : Fin 1) q)) = V c main_v39 _
  refine congrArg (V c main_v39) (funext fun a => Fin.ext ?_)
  match a with
  | ⟨0, _⟩ => show win0_5.index t (0 : Fin 2) * 1 + 1 * 0 = 0; omega
  | ⟨1, _⟩ => show win0_5.index t (1 : Fin 2) * 128 + 1 * q.val = win0_6.index t (1 : Fin 2) * 128 + 1 * q.val; omega

/-! ## What a point writes back -/

/-- The body's stored value over point `t`'s input blocks, entry by entry, is the layer at the rows the block
    covers. -/
theorem stored_at (c : Dev nD) (t : Fin cfg0.N) (p : Fin 5000) (q : Fin 128) :
    k0_pay1 (F := Ideal) (iblk0 V c 0 t) (iblk0 V c 1 t) (iblk0 V c 2 t) (iblk0 V c 4 t) (iblk0 V c 3 t) (iblk0 V c 5 t) (ix2 p q)
      = layer V c (rowOf t p q) := by
  refine (Cert.KernelIdeal.Body.pay0_at (iblk0 V c 0 t) (iblk0 V c 1 t) (iblk0 V c 2 t) (iblk0 V c 4 t) (iblk0 V c 3 t) (iblk0 V c 5 t) p q).trans ?_
  unfold layer Cert.SageSpec.entry
  simp only [read_feats V c t p q, read_neigh V c t p q, read_wSelf V c t p q, read_wNeigh V c t p q,
    read_bSelf V c t p q, read_bNeigh V c t p q]

/-- WHAT POINT `t` WRITES BACK is block `t` of the layer of the arrays the launch found. -/
theorem flushed_eq (c : Dev nD) (t : Fin cfg0.N) :
    (dat0 V c).flushed 6 t = ((cfg0.win 6).blk t).view.read (Elt Ideal) (layer V c) := by
  show (cfg0.win 6).cut (grid0.coords t) ((dat0 V c).after 6 t) = _
  rw [after0_6]
  unfold out0_6
  rw [View.canon_unit_zero zeroOffsets]
  simp only [View.ld_unit_zero (S := S5000x128) zeroOffsets, View.ld_unit_zero (S := S128x128) zeroOffsets,
    View.ld_unit_zero (S := S1x128) zeroOffsets]
  funext j
  obtain ⟨p, q, rfl⟩ : ∃ (p : Fin 5000) (q : Fin 128), j = ix2 p q := ⟨j 0, j 1, eq_ix2 j⟩
  exact stored_at V c t p q

/-! ## The blocks tile the array -/

/-- An index of the output array is in point `t`'s block iff each coordinate is in the block's range. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v40).slice (win0_6.rect t)).set ↔ _
  rw [View.set_slice_whole, Rect.mem_set_unit]
  exact Iff.rfl

/-- Every index is in the block of the point numbered by its row divided by 5000. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := rowBlocks_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE OUTPUT ARRAY after the launch: the layer of the arrays the launch found. -/
theorem final (c : Dev nD) : (dat0 V c).arrAt 6 cfg0.N = layer V c :=
  (dat0 V c).arrAt_eq_of_cover 6 (layer V c) (fun t _ => flushed_eq V c t) covered

end Cert.KernelIdeal.Region0

end
-- ==== Proof.Region1Value.lean ====
/-
  The second launch (the bill nodes): what its output array holds when the launch is over.

  The grid has 10 points; point `t` reads rows `5000·t … 5000·t + 4999` of the node features and of the aggregated
  neighbour features, the two weight matrices and the two bias rows whole, and writes the same rows of the
  output. Every entry of the block a point writes back is the layer's entry (`Cert.SageSpec.entry`) at that row and
  column of the WHOLE arrays: an output row depends on the same row of the two feature arrays only. The 10 blocks
  tile the 50000 rows, so after the last point the output array is the layer of the arrays the launch found.
  All of it is stated at whatever the buffers hold when the launch is entered (`V`).
-/
import proofs.«182036_j764504178904_1_alg».proof.Proof.Gen.KernelIdeal.Frame
import proofs.«182036_j764504178904_1_alg».proof.Proof.Payload

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-! ## The arrays the launch finds, at their literal shapes -/

abbrev feats (c : Dev nD) : S50000x128.Idx → EReal := V c main_arg1
abbrev neigh (c : Dev nD) : S50000x128.Idx → EReal := V c main_v18
abbrev wSelf (c : Dev nD) : S128x128.Idx → EReal := V c main_arg4
abbrev bSelf (c : Dev nD) : S1x128.Idx → EReal := V c main_v41
abbrev wNeigh (c : Dev nD) : S128x128.Idx → EReal := V c main_arg6
abbrev bNeigh (c : Dev nD) : S1x128.Idx → EReal := V c main_v42

/-- The layer over the arrays the launch finds: the entry at row `i 0`, column `i 1`. -/
def layer (c : Dev nD) : S50000x128.Idx → EReal := fun i =>
  Cert.SageSpec.entry (M := 50000) (fun r k => feats V c (ix2 r k)) (fun r k => neigh V c (ix2 r k))
    (fun k q => wSelf V c (ix2 k q)) (fun k q => wNeigh V c (ix2 k q))
    (fun q => bSelf V c (ix2 (0 : Fin 1) q)) (fun q => bNeigh V c (ix2 (0 : Fin 1) q))
    ⟨(i 0).val, (i 0).isLt⟩ ⟨(i 1).val, (i 1).isLt⟩

/-- The layer depends on the six arrays only: over arrays known by other names it is the same entries. -/
theorem layer_of (c : Dev nD) (X A : S50000x128.Idx → EReal) (Ws Wn : S128x128.Idx → EReal) (Bs Bn : S1x128.Idx → EReal)
    (hX : feats V c = X) (hA : neigh V c = A) (hWs : wSelf V c = Ws) (hWn : wNeigh V c = Wn)
    (hBs : bSelf V c = Bs) (hBn : bNeigh V c = Bn) :
    layer V c = fun i => Cert.SageSpec.entry (M := 50000) (fun r k => X (ix2 r k)) (fun r k => A (ix2 r k))
      (fun k q => Ws (ix2 k q)) (fun k q => Wn (ix2 k q))
      (fun q => Bs (ix2 (0 : Fin 1) q)) (fun q => Bn (ix2 (0 : Fin 1) q))
      ⟨(i 0).val, (i 0).isLt⟩ ⟨(i 1).val, (i 1).isLt⟩ := by
  subst hX hA hWs hWn hBs hBn
  rfl

theorem zeroOffsets : (![0, 0] : Fin 2 → Nat) = fun _ => 0 := funext fun a => by fin_cases a <;> rfl

/-- The printed index maps, decided over the 10 points: the two feature windows move with the output window along
    the rows; the weights and biases stay at block (0, 0); the output's row block is the point's number. -/
theorem indexMaps : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 9 ∧ win1_6.index t (1 : Fin 2) = 0 :=
  (by decide +kernel : ∀ t : Fin grid1.N, _)

/-- Every row block of the output is some point's. -/
theorem rowBlocks_onto : ∀ b : Fin 10, ∃ t : Fin cfg1.N, win1_6.index t = ![b.val, 0] :=
  (by decide +kernel : ∀ b : Fin 10, ∃ t : Fin grid1.N, win1_6.index t = ![b.val, 0])

/-! ## Each input block is its array read where the output's block sits -/

/-- The row of the whole arrays that row `p` of point `t`'s output block is. -/
abbrev rowOf (t : Fin cfg1.N) (p : Fin 5000) (q : Fin 128) : S50000x128.Idx := ((cfg1.win 6).blk t).view.emb (ix2 p q)

theorem read_feats (c : Dev nD) (t : Fin cfg1.N) (p : Fin 5000) (q k : Fin 128) :
    iblk1 V c 0 t (ix2 p k) = feats V c (ix2 ⟨(rowOf t p q 0).val, (rowOf t p q 0).isLt⟩ k) := by
  obtain ⟨e00, e01, e10, e11, e20, e21, e30, e31, e40, e41, e50, e51, e60, e61⟩ := indexMaps t
  show V c main_arg1 (((cfg1.win 0).blk t).view.emb (ix2 p k)) = V c main_arg1 _
  refine congrArg (V c main_arg1) (funext fun a => Fin.ext ?_)
  match a with
  | ⟨0, _⟩ => show win1_0.index t (0 : Fin 2) * 5000 + 1 * p.val = win1_6.index t (0 : Fin 2) * 5000 + 1 * p.val; omega
  | ⟨1, _⟩ => show win1_0.index t (1 : Fin 2) * 128 + 1 * k.val = k.val; omega

theorem read_neigh (c : Dev nD) (t : Fin cfg1.N) (p : Fin 5000) (q k : Fin 128) :
    iblk1 V c 1 t (ix2 p k) = neigh V c (ix2 ⟨(rowOf t p q 0).val, (rowOf t p q 0).isLt⟩ k) := by
  obtain ⟨e00, e01, e10, e11, e20, e21, e30, e31, e40, e41, e50, e51, e60, e61⟩ := indexMaps t
  show V c main_v18 (((cfg1.win 1).blk t).view.emb (ix2 p k)) = V c main_v18 _
  refine congrArg (V c main_v18) (funext fun a => Fin.ext ?_)
  match a with
  | ⟨0, _⟩ => show win1_1.index t (0 : Fin 2) * 5000 + 1 * p.val = win1_6.index t (0 : Fin 2) * 5000 + 1 * p.val; omega
  | ⟨1, _⟩ => show win1_1.index t (1 : Fin 2) * 128 + 1 * k.val = k.val; omega

theorem read_wSelf (c : Dev nD) (t : Fin cfg1.N) (p : Fin 5000) (q k : Fin 128) :
    iblk1 V c 2 t (ix2 k q) = wSelf V c (ix2 k ⟨(rowOf t p q 1).val, (rowOf t p q 1).isLt⟩) := by
  obtain ⟨e00, e01, e10, e11, e20, e21, e30, e31, e40, e41, e50, e51, e60, e61⟩ := indexMaps t
  show V c main_arg4 (((cfg1.win 2).blk t).view.emb (ix2 k q)) = V c main_arg4 _
  refine congrArg (V c main_arg4) (funext fun a => Fin.ext ?_)
  match a with
  | ⟨0, _⟩ => show win1_2.index t (0 : Fin 2) * 128 + 1 * k.val = k.val; omega
  | ⟨1, _⟩ => show win1_2.index t (1 : Fin 2) * 128 + 1 * q.val = win1_6.index t (1 : Fin 2) * 128 + 1 * q.val; omega

theorem read_wNeigh (c : Dev nD) (t : Fin cfg1.N) (p : Fin 5000) (q k : Fin 128) :
    iblk1 V c 4 t (ix2 k q) = wNeigh V c (ix2 k ⟨(rowOf t p q 1).val, (rowOf t p q 1).isLt⟩) := by
  obtain ⟨e00, e01, e10, e11, e20, e21, e30, e31, e40, e41, e50, e51, e60, e61⟩ := indexMaps t
  show V c main_arg6 (((cfg1.win 4).blk t).view.emb (ix2 k q)) = V c main_arg6 _
  refine congrArg (V c main_arg6) (funext fun a => Fin.ext ?_)
  match a with
  | ⟨0, _⟩ => show win1_4.index t (0 : Fin 2) * 128 + 1 * k.val = k.val; omega
  | ⟨1, _⟩ => show win1_4.index t (1 : Fin 2) * 128 + 1 * q.val = win1_6.index t (1 : Fin 2) * 128 + 1 * q.val; omega

theorem read_bSelf (c : Dev nD) (t : Fin cfg1.N) (p : Fin 5000) (q : Fin 128) :
    iblk1 V c 3 t (ix2 (0 : Fin 1) q) = bSelf V c (ix2 (0 : Fin 1) ⟨(rowOf t p q 1).val, (rowOf t p q 1).isLt⟩) := by
  obtain ⟨e00, e01, e10, e11, e20, e21, e30, e31, e40, e41, e50, e51, e60, e61⟩ := indexMaps t
  show V c main_v41 (((cfg1.win 3).blk t).view.emb (ix2 (0 : Fin 1) q)) = V c main_v41 _
  refine congrArg (V c main_v41) (funext fun a => Fin.ext ?_)
  match a with
  | ⟨0, _⟩ => show win1_3.index t (0 : Fin 2) * 1 + 1 * 0 = 0; omega
  | ⟨1, _⟩ => show win1_3.index t (1 : Fin 2) * 128 + 1 * q.val = win1_6.index t (1 : Fin 2) * 128 + 1 * q.val; omega

theorem read_bNeigh (c : Dev nD) (t : Fin cfg1.N) (p : Fin 5000) (q : Fin 128) :
    iblk1 V c 5 t (ix2 (0 : Fin 1) q) = bNeigh V c (ix2 (0 : Fin 1) ⟨(rowOf t p q 1).val, (rowOf t p q 1).isLt⟩) := by
  obtain ⟨e00, e01, e10, e11, e20, e21, e30, e31, e40, e41, e50, e51, e60, e61⟩ := indexMaps t
  show V c main_v42 (((cfg1.win 5).blk t).view.emb (ix2 (0 : Fin 1) q)) = V c main_v42 _
  refine congrArg (V c main_v42) (funext fun a => Fin.ext ?_)
  match a with
  | ⟨0, _⟩ => show win1_5.index t (0 : Fin 2) * 1 + 1 * 0 = 0; omega
  | ⟨1, _⟩ => show win1_5.index t (1 : Fin 2) * 128 + 1 * q.val = win1_6.index t (1 : Fin 2) * 128 + 1 * q.val; omega

/-! ## What a point writes back -/

/-- The body's stored value over point `t`'s input blocks, entry by entry, is the layer at the rows the block
    covers. -/
theorem stored_at (c : Dev nD) (t : Fin cfg1.N) (p : Fin 5000) (q : Fin 128) :
    k1_pay1 (F := Ideal) (iblk1 V c 0 t) (iblk1 V c 1 t) (iblk1 V c 2 t) (iblk1 V c 4 t) (iblk1 V c 3 t) (iblk1 V c 5 t) (ix2 p q)
      = layer V c (rowOf t p q) := by
  refine (Cert.KernelIdeal.Body.pay1_at (iblk1 V c 0 t) (iblk1 V c 1 t) (iblk1 V c 2 t) (iblk1 V c 4 t) (iblk1 V c 3 t) (iblk1 V c 5 t) p q).trans ?_
  unfold layer Cert.SageSpec.entry
  simp only [read_feats V c t p q, read_neigh V c t p q, read_wSelf V c t p q, read_wNeigh V c t p q,
    read_bSelf V c t p q, read_bNeigh V c t p q]

/-- WHAT POINT `t` WRITES BACK is block `t` of the layer of the arrays the launch found. -/
theorem flushed_eq (c : Dev nD) (t : Fin cfg1.N) :
    (dat1 V c).flushed 6 t = ((cfg1.win 6).blk t).view.read (Elt Ideal) (layer V c) := by
  show (cfg1.win 6).cut (grid1.coords t) ((dat1 V c).after 6 t) = _
  rw [after1_6]
  unfold out1_6
  rw [View.canon_unit_zero zeroOffsets]
  simp only [View.ld_unit_zero (S := S5000x128) zeroOffsets, View.ld_unit_zero (S := S128x128) zeroOffsets,
    View.ld_unit_zero (S := S1x128) zeroOffsets]
  funext j
  obtain ⟨p, q, rfl⟩ : ∃ (p : Fin 5000) (q : Fin 128), j = ix2 p q := ⟨j 0, j 1, eq_ix2 j⟩
  exact stored_at V c t p q

/-! ## The blocks tile the array -/

/-- An index of the output array is in point `t`'s block iff each coordinate is in the block's range. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v43).slice (win1_6.rect t)).set ↔ _
  rw [View.set_slice_whole, Rect.mem_set_unit]
  exact Iff.rfl

/-- Every index is in the block of the point numbered by its row divided by 5000. -/
theorem covered (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := rowBlocks_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE OUTPUT ARRAY after the launch: the layer of the arrays the launch found. -/
theorem final (c : Dev nD) : (dat1 V c).arrAt 6 cfg1.N = layer V c :=
  (dat1 V c).arrAt_eq_of_cover 6 (layer V c) (fun t _ => flushed_eq V c t) covered

end Cert.KernelIdeal.Region1

end
-- ==== Proof.KernelValue.lean ====
/-
  The two results of the whole program as functions of the launch memory.

  The member nodes' result is the layer (`Cert.SageSpec.entry`) over the member features, the members' aggregated
  neighbour features, and the member-side weights and biases; the bill nodes' result likewise. What each launch
  finds in its operand arrays is read back to the launch memory: the argument arrays as launched, each aggregated
  array as ONE function of the arrays it is computed from, and each bias row as the bias vector with a leading
  unit axis, read at `(0, q)` as the vector at `q`.
-/
import proofs.«182036_j764504178904_1_alg».proof.Proof.KernelRun
import proofs.«182036_j764504178904_1_alg».proof.Proof.Entry
import proofs.«182036_j764504178904_1_alg».proof.Proof.Region0Value
import proofs.«182036_j764504178904_1_alg».proof.Proof.Region1Value
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx

/-- The member nodes' result, of the arrays it depends on. -/
def outMembers (x0 : S100000x128.Idx → EReal) (x1 : S50000x128.Idx → EReal) (x2 : S128x128.Idx → EReal) (x3 : S128.Idx → EReal)
    (x8 : S128x128.Idx → EReal) (x9 : S128.Idx → EReal) (x12 x13 : S1600000.Idx → BitVec 32) : S100000x128.Idx → EReal := fun i =>
  Cert.SageSpec.entry (M := 100000) (fun r k => x0 (ix2 r k))
    (fun r k => Cert.KernelIdeal.Entry.aggMembers (F := Ideal) x1 x12 x13 (ix2 r k))
    (fun k q => x2 (ix2 k q)) (fun k q => x8 (ix2 k q)) (fun q => x3 (ix1 q)) (fun q => x9 (ix1 q))
    ⟨(i 0).val, (i 0).isLt⟩ ⟨(i 1).val, (i 1).isLt⟩

/-- The bill nodes' result, of the arrays it depends on. -/
def outBills (x0 : S100000x128.Idx → EReal) (x1 : S50000x128.Idx → EReal) (x4 : S128x128.Idx → EReal) (x5 : S128.Idx → EReal)
    (x6 : S128x128.Idx → EReal) (x7 : S128.Idx → EReal) (x10 x11 : S1600000.Idx → BitVec 32) : S50000x128.Idx → EReal := fun i =>
  Cert.SageSpec.entry (M := 50000) (fun r k => x1 (ix2 r k))
    (fun r k => Cert.KernelIdeal.Entry.aggBills (F := Ideal) x0 x10 x11 (ix2 r k))
    (fun k q => x4 (ix2 k q)) (fun k q => x6 (ix2 k q)) (fun q => x5 (ix1 q)) (fun q => x7 (ix1 q))
    ⟨(i 0).val, (i 0).isLt⟩ ⟨(i 1).val, (i 1).isLt⟩

variable (m : (ℓ : Loc nD τ sig) → Buf (Elt Ideal) ℓ) (ρ : Dev nD → PrngReg)

/-- The member nodes' result buffer at the end of the run. -/
theorem members_final (c : Dev nD) : W4 m ρ c (Proc.devRef .tc main_v40)
    = outMembers (m ((c : Thread nD τ).loc main_arg0)) (m ((c : Thread nD τ).loc main_arg1)) (m ((c : Thread nD τ).loc main_arg2))
        (m ((c : Thread nD τ).loc main_arg3)) (m ((c : Thread nD τ).loc main_arg8)) (m ((c : Thread nD τ).loc main_arg9))
        (m ((c : Thread nD τ).loc main_arg12)) (m ((c : Thread nD τ).loc main_arg13)) := by
  rw [Cert.KernelIdeal.Entry.result_members, Cert.KernelIdeal.Region0.final,
    Cert.KernelIdeal.Region0.layer_of (V1 m ρ) c _ _ _ _ _ _
      (Cert.KernelIdeal.Entry.first_feats m ρ c) (Cert.KernelIdeal.Entry.first_neigh m ρ c)
      (Cert.KernelIdeal.Entry.first_wSelf m ρ c) (Cert.KernelIdeal.Entry.first_wNeigh m ρ c)
      (Cert.KernelIdeal.Entry.first_bSelf m ρ c) (Cert.KernelIdeal.Entry.first_bNeigh m ρ c)]
  funext i
  unfold outMembers
  simp only [shapeCast_a_1a_apply]

/-- The bill nodes' result buffer at the end of the run. -/
theorem bills_final (c : Dev nD) : W4 m ρ c (Proc.devRef .tc main_v43)
    = outBills (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7))
        (m ((c : Thread nD τ).loc main_arg10)) (m ((c : Thread nD τ).loc main_arg11)) := by
  rw [Cert.KernelIdeal.Entry.result_bills, Cert.KernelIdeal.Region1.final,
    Cert.KernelIdeal.Region1.layer_of (V3 m ρ) c _ _ _ _ _ _
      (Cert.KernelIdeal.Entry.second_feats m ρ c) (Cert.KernelIdeal.Entry.second_neigh m ρ c)
      (Cert.KernelIdeal.Entry.second_wSelf m ρ c) (Cert.KernelIdeal.Entry.second_wNeigh m ρ c)
      (Cert.KernelIdeal.Entry.second_bSelf m ρ c) (Cert.KernelIdeal.Entry.second_bNeigh m ρ c)]
  funext i
  unfold outBills
  simp only [shapeCast_a_1a_apply]

/-- THE RUN of the idealized kernel program: every weakly fair execution terminates without a fault, with the two
    results at the layer of the launch memory's arrays and every argument array as launched. -/
theorem run : θ_run defs (onTc (τ := τ) (main (F := Ideal))) ⟨m, fun _ => 0, ρ⟩ (fun r => ∀ c : Dev nD,
      r.2.mem ((c.tc : Thread nD τ).loc main_v40) = outMembers (m ((c : Thread nD τ).loc main_arg0)) (m ((c : Thread nD τ).loc main_arg1)) (m ((c : Thread nD τ).loc main_arg2))
        (m ((c : Thread nD τ).loc main_arg3)) (m ((c : Thread nD τ).loc main_arg8)) (m ((c : Thread nD τ).loc main_arg9))
        (m ((c : Thread nD τ).loc main_arg12)) (m ((c : Thread nD τ).loc main_arg13))
      ∧ r.2.mem ((c.tc : Thread nD τ).loc main_v43) = outBills (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7))
        (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (members_final m ρ c), (h c).2.1.trans (bills_final m ρ c), (h c).2.2⟩)
    (run_results m ρ)

end Cert.KernelIdeal.Whole

end
-- ==== Proof.lean ====
/-
  The certificate of the two-type graph layer: the fused kernel program against its reference, over the extended reals.

  Both programs compute, for the member nodes and for the bill nodes,

      relu (x · W_self + b_self + agg · W_neigh + b_neigh) ,

  where `agg` is the mean of the in-neighbours' features (a gather along the edges, a segment sum, a division by the
  in-degree clamped at one), computed on the host by the same operations in both programs. The kernel program
  launches one fused kernel per node type, tiled over blocks of 5000 rows, with the two products added first and the
  biases after; the reference adds each bias as it goes. Over the extended reals a change of float format is the
  identity and the matrix products are plain sums, so the two differ only in the order of one addition, which is
  commutative and associative there: the claim needs nothing of the inputs' finiteness.

  * The three frames: the two kernel programs' are the generated frame certificates; the reference's is its
    generated run with the results dropped.
  * `preserves`: the idealization rewrote nothing.
  * `algebraic`: the kernel program's two results are the layer of the launch arrays (`Cert.KernelIdeal.Whole.run`);
    the reference's results are the same layer in its own grouping (`Cert.ReferenceIdeal.RefSide`), the aggregated
    arrays being one function on both sides.
-/
import proofs.«182036_j764504178904_1_alg».proof.Defs
import proofs.«182036_j764504178904_1_alg».proof.Proof.Gen.Kernel
import proofs.«182036_j764504178904_1_alg».proof.Proof.Gen.Kernel.Frame
import proofs.«182036_j764504178904_1_alg».proof.Proof.Gen.KernelIdeal
import proofs.«182036_j764504178904_1_alg».proof.Proof.Gen.KernelIdeal.Frame
import proofs.«182036_j764504178904_1_alg».proof.Proof.Gen.ReferenceIdeal
import proofs.«182036_j764504178904_1_alg».proof.Proof.Gen.ReferenceIdeal.Run
import proofs.«182036_j764504178904_1_alg».proof.Proof.Gen.ReferenceIdeal.Read
import proofs.«182036_j764504178904_1_alg».proof.Proof.Gen.Pre_finite_inputs
import proofs.«182036_j764504178904_1_alg».proof.Proof.Spec
import proofs.«182036_j764504178904_1_alg».proof.Proof.RefSide
import proofs.«182036_j764504178904_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.ValueIdx

/-! ## The aggregated arrays are one function in the two programs -/

/-- The members' aggregated neighbour features: the kernel program's host operations and the reference's are the
    same operations of the same arrays. -/
theorem aggMembers_eq {F : FTy → Type} [FloatOps F] (x1 : (⟨Cert.KernelIdeal.S50000x128, .f32⟩ : BufTy).Contents (Elt F))
    (x12 x13 : (⟨Cert.KernelIdeal.S1600000, .i32⟩ : BufTy).Contents (Elt F)) :
    Cert.KernelIdeal.Entry.aggMembers (F := F) x1 x12 x13 = Cert.ReferenceIdeal.Read.val_main_v50 (F := F) x1 x12 x13 := rfl

/-- The bills' aggregated neighbour features, likewise. -/
theorem aggBills_eq {F : FTy → Type} [FloatOps F] (x0 : (⟨Cert.KernelIdeal.S100000x128, .f32⟩ : BufTy).Contents (Elt F))
    (x10 x11 : (⟨Cert.KernelIdeal.S1600000, .i32⟩ : BufTy).Contents (Elt F)) :
    Cert.KernelIdeal.Entry.aggBills (F := F) x0 x10 x11 = Cert.ReferenceIdeal.Read.val_main_v26 (F := F) x0 x10 x11 := rfl

/-! ## The reference's results are the kernel program's functions -/

theorem members_ref (x0 : Cert.KernelIdeal.S100000x128.Idx → EReal) (x1 : Cert.KernelIdeal.S50000x128.Idx → EReal)
    (x2 : Cert.KernelIdeal.S128x128.Idx → EReal) (x3 : Cert.KernelIdeal.S128.Idx → EReal)
    (x8 : Cert.KernelIdeal.S128x128.Idx → EReal) (x9 : Cert.KernelIdeal.S128.Idx → EReal)
    (x12 x13 : Cert.KernelIdeal.S1600000.Idx → BitVec 32) :
    Cert.ReferenceIdeal.Read.val_main_v56 (F := Ideal) x0 x1 x2 x3 x8 x9 x12 x13
      = Cert.KernelIdeal.Whole.outMembers x0 x1 x2 x3 x8 x9 x12 x13 := by
  rw [Cert.ReferenceIdeal.RefSide.members_eq]
  funext i
  rw [Cert.SageSpec.entryRef_eq_entry]
  unfold Cert.KernelIdeal.Whole.outMembers
  rw [aggMembers_eq]

theorem bills_ref (x0 : Cert.KernelIdeal.S100000x128.Idx → EReal) (x1 : Cert.KernelIdeal.S50000x128.Idx → EReal)
    (x4 : Cert.KernelIdeal.S128x128.Idx → EReal) (x5 : Cert.KernelIdeal.S128.Idx → EReal)
    (x6 : Cert.KernelIdeal.S128x128.Idx → EReal) (x7 : Cert.KernelIdeal.S128.Idx → EReal)
    (x10 x11 : Cert.KernelIdeal.S1600000.Idx → BitVec 32) :
    Cert.ReferenceIdeal.Read.val_main_v57 (F := Ideal) x0 x1 x4 x5 x6 x7 x10 x11
      = Cert.KernelIdeal.Whole.outBills x0 x1 x4 x5 x6 x7 x10 x11 := by
  rw [Cert.ReferenceIdeal.RefSide.bills_eq]
  funext i
  rw [Cert.SageSpec.entryRef_eq_entry]
  unfold Cert.KernelIdeal.Whole.outBills
  rw [aggBills_eq]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13⟩ := hagree c
    rw [h0, h1, h2, h3, h8, h9, h12, h13]
    exact (Cert.ReferenceIdeal.Read.val_main_v56_eq _ _ _ _ _ _ _ _).trans (members_ref _ _ _ _ _ _ _ _)
  · obtain ⟨h0, h1, h2, h3, h4, h5, h6, h7, h8, h9, h10, h11, h12, h13⟩ := hagree c
    rw [h0, h1, h4, h5, h6, h7, h10, h11]
    exact (Cert.ReferenceIdeal.Read.val_main_v57_eq _ _ _ _ _ _ _ _).trans (bills_ref _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
